-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S8x512x512 : Shape := ⟨3, ![8, 512, 512]⟩
abbrev S8x512 : Shape := ⟨2, ![8, 512]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S262144x512 .f32) (main_arg1 : FVec F S8x512x512 .f32) (main_arg2 : FVec F S8x512 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S262144x512 : Shape := ⟨2, ![262144, 512]⟩
abbrev S8x512x512 : Shape := ⟨3, ![8, 512, 512]⟩
abbrev S8x512 : Shape := ⟨2, ![8, 512]⟩
abbrev S8x1x512 : Shape := ⟨3, ![8, 1, 512]⟩
abbrev S2048x512 : Shape := ⟨2, ![2048, 512]⟩
abbrev S1x512x512 : Shape := ⟨3, ![1, 512, 512]⟩
abbrev S1x1x512 : Shape := ⟨3, ![1, 1, 512]⟩
abbrev S512x512 : Shape := ⟨2, ![512, 512]⟩
abbrev S512 : Shape := ⟨1, ![512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S262144x512, .f32⟩
  | .hbm, ⟨1, _⟩ => ⟨S8x512x512, .f32⟩
  | .hbm, ⟨2, _⟩ => ⟨S8x512, .f32⟩
  | .hbm, ⟨3, _⟩ => ⟨S8x1x512, .f32⟩
  | .hbm, ⟨4, _⟩ => ⟨S262144x512, .f32⟩
  | .local _ .vmem, ⟨0, _⟩ => ⟨S2048x512, .f32⟩
  | .local _ .vmem, ⟨1, _⟩ => ⟨S2048x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S2048x512, .f32⟩
  | .local _ .vmem, ⟨7, _⟩ => ⟨S2048x512, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x512_S8x1x512 : S8x512.ShapeCasts S8x1x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S262144x512.size a
  hwx0_0 : ∀ i : grid0.Coords, EltTy.bits .f32 = 32 ∨ (Rect.block (s := S262144x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S262144x512.size a
  hwx0_3 : ∀ i : grid0.Coords, EltTy.bits .f32 = 32 ∨ (Rect.block (s := S262144x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x512 : Shape := ⟨2, ![262144, 512]⟩
abbrev S8x512x512 : Shape := ⟨3, ![8, 512, 512]⟩
abbrev S8x512 : Shape := ⟨2, ![8, 512]⟩
abbrev S8x32768x512 : Shape := ⟨3, ![8, 32768, 512]⟩
abbrev S8x1x512 : Shape := ⟨3, ![8, 1, 512]⟩

abbrev nBuf : Space → Nat
  | .hbm => 9
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S8x512x512, .f32⟩
  | .hbm, ⟨2, _⟩ => ⟨S8x512, .f32⟩
  | .hbm, ⟨3, _⟩ => ⟨S8x32768x512, .f32⟩
  | .hbm, ⟨4, _⟩ => ⟨S8x32768x512, .f32⟩
  | .hbm, ⟨5, _⟩ => ⟨S8x1x512, .f32⟩
  | .hbm, ⟨6, _⟩ => ⟨S8x32768x512, .f32⟩
  | .hbm, ⟨7, _⟩ => ⟨S8x32768x512, .f32⟩
  | .hbm, ⟨8, _⟩ => ⟨S262144x512, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S262144x512_S8x32768x512 : S262144x512.ShapeCasts S8x32768x512
  bcast_S8x512_S8x1x512_0_2 : S8x512.BroadcastsInDim S8x1x512 (![0, 2] : Fin 2 → Fin S8x1x512.rank)
  bcast_S8x1x512_S8x32768x512_0_1_2 : S8x1x512.BroadcastsInDim S8x32768x512 (![0, 1, 2] : Fin 3 → Fin S8x32768x512.rank)
  shapeCasts_S8x32768x512_S262144x512 : S8x32768x512.ShapeCasts S262144x512
  dot_S8x32768x512_S8x512x512_S8x32768x512_2_1_1_2_0_0_wf : DotDims.WF S8x32768x512 S8x512x512 S8x32768x512 [2] [1] [1] [2] [0] [0]

variable [Facts₀]

def dot_S8x32768x512_S8x512x512_S8x32768x512_2_1_1_2_0_0 : DotDims S8x32768x512 S8x512x512 S8x32768x512 where
  lhsContracting := [2]
  rhsContracting := [1]
  lhsNonContracting := [1]
  rhsNonContracting := [2]
  lhsBatch := [0]
  rhsBatch := [0]
  wf := dot_S8x32768x512_S8x512x512_S8x32768x512_2_1_1_2_0_0_wf

class Facts : Prop extends Facts₀ where

variable [Facts]
-- ==== Proof.GroupedSpec.lean ====
/-
  What both programs compute, over the extended reals. The 262144 rows of `x` fall into eight contiguous groups of
  32768 rows each; a row is multiplied by the weight matrix of its own group and that group's bias row is added:

      out[r, n] = Σ_k x[r, k] · w[r / 32768, k, n] + bias[r / 32768, n].

  Only the shapes and this one function are stated here; neither program is mentioned.
-/
import Idealize.ShloMosaic.Lib.ValueIdx
import Idealize.ShloMosaic.PureOps.Ideal

noncomputable section

namespace Cert.GroupedGemm

open Idealize.ShloMosaic Idealize.ShloMosaic.ValueIdx

/-- The group a row of `x` belongs to: eight contiguous groups of 32768 rows. -/
def groupOf (r : Fin 262144) : Fin 8 := ⟨r.val / 32768, by have := r.isLt; omega⟩

theorem groupOf_val (r : Fin 262144) : (groupOf r).val = r.val / 32768 := rfl

/-- `out[r, n] = Σ_k x[r, k] · w[group r, k, n] + bias[group r, n]`. -/
def grouped (x : FVec Ideal ⟨2, ![262144, 512]⟩ .f32) (w : FVec Ideal ⟨3, ![8, 512, 512]⟩ .f32)
    (b : FVec Ideal ⟨2, ![8, 512]⟩ .f32) : FVec Ideal ⟨2, ![262144, 512]⟩ .f32 :=
  fun i => (∑ k : Fin 512, x (ix2 (i 0 : Fin 262144) k) * w (ix3 (groupOf (i 0)) k (i 1 : Fin 512)))
    + b (ix2 (groupOf (i 0)) (i 1 : Fin 512))

end Cert.GroupedGemm

end
-- ==== Proof.RefValue.lean ====
/-
  The reference computes `grouped`. Its program views `x` as [8, 32768, 512] (row r is entry (r / 32768, r % 32768)),
  contracts the last axis against the weight matrix of the same leading index, adds the bias row of that leading index
  to every one of the 32768 rows, and views the result as [262144, 512] again. Read at an output index (r, n), the two
  changes of view cancel: the product's row is row r of `x`, the leading index is r / 32768.
-/
import proofs.«124337_j20624432955428_1_alg».proof.Proof.Gen.ReferenceIdeal.Read
import proofs.«124337_j20624432955428_1_alg».proof.Proof.GroupedSpec

noncomputable section

namespace Cert.ReferenceIdeal.RefValue

open Cert.ReferenceIdeal Cert.ReferenceIdeal.Gen Cert.ReferenceIdeal.Read
open Idealize.ShloMosaic Idealize.ShloMosaic.ValueIdx Cert.GroupedGemm

/-- The left factor of the k-th product at output (r, n) is `x[r, k]`: flattening (r, n) to r·512 + n and splitting it
    as (g, s, n) with r = g·32768 + s, then flattening (g, s, k) back, gives row r again. -/
theorem lhs_index (i : S262144x512.Idx) (k : Fin 512) :
    idx_main_v0 (lidx_main_v1 (idx_main_v5 i) k) = ix2 (i 0 : Fin 262144) k := by
  have h0 : (i 0).val < 262144 := (i 0).isLt
  have h1 : (i 1).val < 512 := (i 1).isLt
  have hk : k.val < 512 := k.isLt
  funext a; apply Fin.ext
  match a with
  | ⟨0, _⟩ =>
    show ((((i 0).val * 512 + (i 1).val) / 16777216 * 32768 + ((i 0).val * 512 + (i 1).val) / 512 % 32768) * 512 + k.val) / 512 = (i 0).val
    omega
  | ⟨1, _⟩ =>
    show ((((i 0).val * 512 + (i 1).val) / 16777216 * 32768 + ((i 0).val * 512 + (i 1).val) / 512 % 32768) * 512 + k.val) % 512 = k.val
    omega

/-- The right factor is `w[r / 32768, k, n]`. -/
theorem rhs_index (i : S262144x512.Idx) (k : Fin 512) :
    ridx_main_v1 (idx_main_v5 i) k = ix3 (groupOf (i 0)) k (i 1 : Fin 512) := by
  have h0 : (i 0).val < 262144 := (i 0).isLt
  have h1 : (i 1).val < 512 := (i 1).isLt
  funext a; apply Fin.ext
  match a with
  | ⟨0, _⟩ =>
    show ((i 0).val * 512 + (i 1).val) / 16777216 = (i 0).val / 32768
    omega
  | ⟨1, _⟩ => rfl
  | ⟨2, _⟩ =>
    show ((i 0).val * 512 + (i 1).val) % 512 = (i 1).val
    omega

/-- The bias entry added at output (r, n) is `bias[r / 32768, n]`. -/
theorem bias_index (i : S262144x512.Idx) :
    idx_main_v2 (idx_main_v3 (idx_main_v5 i)) = ix2 (groupOf (i 0)) (i 1 : Fin 512) := by
  have h0 : (i 0).val < 262144 := (i 0).isLt
  have h1 : (i 1).val < 512 := (i 1).isLt
  funext a; apply Fin.ext
  match a with
  | ⟨0, _⟩ =>
    show ((i 0).val * 512 + (i 1).val) / 16777216 = (i 0).val / 32768
    omega
  | ⟨1, _⟩ =>
    show ((i 0).val * 512 + (i 1).val) % 512 = (i 1).val
    omega

/-- The reference's result, as a function of its three arguments, is `grouped`. -/
theorem result_eq (x : FVec Ideal S262144x512 .f32) (w : FVec Ideal S8x512x512 .f32) (b : FVec Ideal S8x512 .f32) :
    val_main_v5 (F := Ideal) x w b = grouped x w b := by
  funext i
  rw [val_main_v5_apply, val_main_v4_apply, val_main_v1_apply, val_main_v3_apply, val_main_v2_apply]
  simp only [val_main_v0_apply, lhs_index, rhs_index, bias_index]
  rfl

end Cert.ReferenceIdeal.RefValue

end
-- ==== Proof.BodyValue.lean ====
/-
  What the kernel body stores, read at one entry. At a grid point the body holds a [2048, 512] block of rows of `x`, one
  group's [1, 512, 512] weight block and that group's [1, 1, 512] bias block. It multiplies the rows by the weight matrix
  (the unit leading axis dropped) into a zero accumulator and adds the bias lane to every row. At the extended reals
  the narrowing of the factors to a shorter float format is the identity, so entry (p, q) of the stored block is

      Σ_k rows[p, k] · weight[0, k, q] + bias[0, 0, q].
-/
import proofs.«124337_j20624432955428_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-! ## The operand indices of the body's matrix product -/

/-- The left operand's row is the output's row. -/
theorem lhs_axis0 (j : S2048x512.Idx) (q : dot_S2048x512_S512x512_S2048x512_1_0_0_1_n_n.contr.Idx) :
    (dot_S2048x512_S512x512_S2048x512_1_0_0_1_n_n.lhsIdx j q 0).val = (j 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
/-- The left operand's column is the contraction index. -/
theorem lhs_axis1 (j : S2048x512.Idx) (q : dot_S2048x512_S512x512_S2048x512_1_0_0_1_n_n.contr.Idx) :
    (dot_S2048x512_S512x512_S2048x512_1_0_0_1_n_n.lhsIdx j q 1).val = (q ⟨0, by decide⟩).val :=
  dot_S2048x512_S512x512_S2048x512_1_0_0_1_n_n.lhsIdx_val_of_single rfl j q
/-- The right operand's row is the contraction index. -/
theorem rhs_axis0 (j : S2048x512.Idx) (q : dot_S2048x512_S512x512_S2048x512_1_0_0_1_n_n.contr.Idx) :
    (dot_S2048x512_S512x512_S2048x512_1_0_0_1_n_n.rhsIdx j q 0).val = (q ⟨0, by decide⟩).val :=
  dot_S2048x512_S512x512_S2048x512_1_0_0_1_n_n.rhsIdx_val_of_single rfl j q
/-- The right operand's column is the output's column. -/
theorem rhs_axis1 (j : S2048x512.Idx) (q : dot_S2048x512_S512x512_S2048x512_1_0_0_1_n_n.contr.Idx) :
    (dot_S2048x512_S512x512_S2048x512_1_0_0_1_n_n.rhsIdx j q 1).val = (j 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The product into a zero accumulator, at entry (p, q): the sum over k of left[p, k] · right[k, q]. -/
theorem product_at (a : FVec Ideal S2048x512 .bf16) (b : FVec Ideal S512x512 .bf16) (p : Fin 2048) (q : Fin 512) :
    matmul dot_S2048x512_S512x512_S2048x512_1_0_0_1_n_n none a b (constant (F := Ideal) S2048x512 .f32 0x00000000#32) (ix2 p q)
      = ∑ k : Fin 512, a (ix2 p k) * b (ix2 k q) := by
  simp only [matmul]
  rw [Ideal.matmul_constant_zero_apply,
    ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q)
      ((contrEquiv1 dot_S2048x512_S512x512_S2048x512_1_0_0_1_n_n 512 rfl rfl).symm k) = ix2 p k :=
    funext fun ax => Fin.ext (by
      match ax with
      | ⟨0, _⟩ => exact lhs_axis0 _ _
      | ⟨1, _⟩ => exact (lhs_axis1 _ _).trans hk)
  have er : dot_S2048x512_S512x512_S2048x512_1_0_0_1_n_n.rhsIdx (ix2 p q)
      ((contrEquiv1 dot_S2048x512_S512x512_S2048x512_1_0_0_1_n_n 512 rfl rfl).symm k) = ix2 k q :=
    funext fun ax => Fin.ext (by
      match ax with
      | ⟨0, _⟩ => exact (rhs_axis0 _ _).trans hk
      | ⟨1, _⟩ => exact rhs_axis1 _ _)
  rw [el, er]

/-! ## The bias lane -/

/-- A [1, 1, a] array with both unit axes dropped reads, at i, the operand at (0, 0, i). -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- The bias block laid out as one lane and repeated down the 2048 rows reads, at (p, q), the block at (0, 0, q). -/
theorem bias_at (x2 : Vec Ideal S1x1x512 .f32) (p : Fin 2048) (q : Fin 512) :
    broadcastTo S2048x512 (shapeCast S1x512 (shapeCast S512 x2 shapeCasts_S1x1x512_S512) shapeCasts_S512_S1x512)
      broadcasts_S1x512_S2048x512 (ix2 p q) = x2 (ix3 (0 : Fin 1) (0 : Fin 1) q) := by
  rw [broadcastTo_1b_ab_apply, shapeCast_a_1a_apply, shapeCast_11a_a_apply]

/-! ## The stored block at an entry -/

/-- Entry (p, q) of what the body stores: the row of `x` against the column of the weight block, plus the bias lane. -/
theorem stored_at (x0 : Vec Ideal S2048x512 .f32) (x1 : Vec Ideal S1x512x512 .f32) (x2 : Vec Ideal S1x1x512 .f32)
    (p : Fin 2048) (q : Fin 512) :
    k0_pay1 (F := Ideal) x0 x1 x2 (ix2 p q)
      = (∑ k : Fin 512, x0 (ix2 p k) * x1 (ix3 (0 : Fin 1) k q)) + x2 (ix3 (0 : Fin 1) (0 : Fin 1) q) := by
  unfold k0_pay1
  rw [addf_apply, product_at, bias_at]
  simp only [truncf_apply, shapeCast_1ab_ab_apply]

end Cert.KernelIdeal.BodyValue

end
-- ==== Proof.ArrayValue.lean ====
/-
  From the blocks to the whole output array. The grid has 8 × 16 points. Point (g, s) holds rows (16·g + s)·2048 up to
  (16·g + s)·2048 + 2047 of `x` and writes back the same rows of the output; beside them it holds the weight matrix and the
  bias row of group g (the bias array reaches the call viewed as [8, 1, 512]). A row of that block lies in group
  ((16·g + s)·2048 + p) / 32768 = g, so what the point writes back is exactly the rows of `grouped` it covers; the 128
  row blocks tile the 262144 rows, so the output array ends at `grouped` of the three argument arrays.
-/
import proofs.«124337_j20624432955428_1_alg».proof.Proof.Gen.KernelIdeal.Value
import proofs.«124337_j20624432955428_1_alg».proof.Proof.BodyValue
import proofs.«124337_j20624432955428_1_alg».proof.Proof.GroupedSpec
import Idealize.ShloMosaic.Lib.StableHlo.Run

noncomputable section

namespace Cert.KernelIdeal.ArrayValue

open Cert.KernelIdeal Cert.KernelIdeal.Gen Cert.KernelIdeal.Value
open Idealize.ShloMosaic Idealize.ShloMosaic.TcCoe Idealize.SL.Sem
open Idealize.ShloMosaic.ValueIdx Cert.GroupedGemm
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The block indices over the grid -/

/-- Decided over the 128 points: the rows of `x` move with the output's rows; the weight and bias blocks are those of
    group (row block) / 16; every other block index is zero; there are 128 row blocks. -/
theorem block_indices : ∀ t : Fin cfg0.N,
    win0_0.index t (0 : Fin 2) = win0_3.index t (0 : Fin 2) ∧ win0_0.index t (1 : Fin 2) = 0
    ∧ win0_1.index t (0 : Fin 3) = win0_3.index t (0 : Fin 2) / 16 ∧ win0_1.index t (1 : Fin 3) = 0 ∧ win0_1.index t (2 : Fin 3) = 0
    ∧ win0_2.index t (0 : Fin 3) = win0_3.index t (0 : Fin 2) / 16 ∧ win0_2.index t (1 : Fin 3) = 0 ∧ win0_2.index t (2 : Fin 3) = 0
    ∧ win0_3.index t (0 : Fin 2) < 128 ∧ win0_3.index t (1 : Fin 2) = 0 :=
  (by decide +kernel : ∀ t : Fin grid0.N, _)

/-- Every one of the 128 row blocks is some point's. -/
theorem block_onto : ∀ b : Fin 128, ∃ t : Fin cfg0.N, win0_3.index t = ![b.val, 0] :=
  (by decide +kernel : ∀ b : Fin 128, ∃ t : Fin grid0.N, win0_3.index t = ![b.val, 0])

/-! ## The input blocks, read off the argument arrays -/

/-- Entry (p, k) of the block of rows is the entry of `x` at the block's row offset plus p. -/
theorem rows_block (c : Dev nD) (t : Fin cfg0.N) (p : Fin 2048) (k : Fin 512) (i : S262144x512.Idx)
    (h0 : (i 0).val = win0_0.index t (0 : Fin 2) * 2048 + p.val)
    (h1 : (i 1).val = win0_0.index t (1 : Fin 2) * 512 + k.val) :
    iblk m c 0 t (ix2 p k) = m ((c : Thread nD τ).loc main_arg0) i := by
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = (i 0).val; omega
  | ⟨1, _⟩ => show win0_0.index t (1 : Fin 2) * 512 + 1 * k.val = (i 1).val; omega

/-- Entry (0, k, n) of the weight block is the entry of the weights at the block's group. -/
theorem weight_block (c : Dev nD) (t : Fin cfg0.N) (k : Fin 512) (n : Fin 512) (i : S8x512x512.Idx)
    (h0 : (i 0).val = win0_1.index t (0 : Fin 3) * 1 + 0)
    (h1 : (i 1).val = win0_1.index t (1 : Fin 3) * 512 + k.val)
    (h2 : (i 2).val = win0_1.index t (2 : Fin 3) * 512 + n.val) :
    iblk m c 1 t (ix3 (0 : Fin 1) k n) = m ((c : Thread nD τ).loc main_arg1) i := by
  show V m c main_arg1 (((cfg0.win 1).blk t).view.emb (ix3 (0 : Fin 1) k n)) = _
  rw [V_main_arg1]
  refine congrArg _ (funext fun a => Fin.ext ?_)
  match a with
  | ⟨0, _⟩ => show win0_1.index t (0 : Fin 3) * 1 + 1 * 0 = (i 0).val; omega
  | ⟨1, _⟩ => show win0_1.index t (1 : Fin 3) * 512 + 1 * k.val = (i 1).val; omega
  | ⟨2, _⟩ => show win0_1.index t (2 : Fin 3) * 512 + 1 * n.val = (i 2).val; omega

/-- The bias array as the call finds it: the [8, 512] argument viewed as [8, 1, 512]. -/
theorem bias_entry (c : Dev nD) :
    (V m c main_v0 : S8x1x512.Idx → EReal)
      = shapeCast S8x1x512 (m ((c : Thread nD τ).loc main_arg2)) shapeCasts_S8x512_S8x1x512 := by
  dsimp only [Gen.V, Gen.hostOps0]; after_results; rfl

/-- Entry (0, 0, n) of the bias block is the bias of the block's group at n. -/
theorem bias_block (c : Dev nD) (t : Fin cfg0.N) (n : Fin 512) (i : S8x512.Idx)
    (h0 : (i 0).val = win0_2.index t (0 : Fin 3) * 1 + 0)
    (hu : win0_2.index t (1 : Fin 3) = 0)
    (h1 : (i 1).val = win0_2.index t (2 : Fin 3) * 512 + n.val) :
    iblk m c 2 t (ix3 (0 : Fin 1) (0 : Fin 1) n) = m ((c : Thread nD τ).loc main_arg2) i := by
  show V m c main_v0 (((cfg0.win 2).blk t).view.emb (ix3 (0 : Fin 1) (0 : Fin 1) n)) = _
  rw [bias_entry]
  refine shapeCast_apply _ _ _ _ ?_
  show (S8x512.rowMajor i).val
    = (S8x1x512.rowMajor (((cfg0.win 2).blk t).view.emb (ix3 (0 : Fin 1) (0 : Fin 1) n))).val
  rw [Shape.rowMajor_val_two, Shape.rowMajor_val_three]
  show (i 0).val * 512 + (i 1).val
    = ((win0_2.index t (0 : Fin 3) * 1 + 1 * 0) * 1 + (win0_2.index t (1 : Fin 3) * 1 + 1 * 0)) * 512
      + (win0_2.index t (2 : Fin 3) * 512 + 1 * n.val)
  omega

/-! ## What a point writes back -/

/-- Point `t` writes back block `t` of `grouped` of the argument arrays. -/
theorem flushed_eq (c : Dev nD) (t : Fin cfg0.N) :
    (dats m 0 c).flushed 3 t = ((cfg0.win 3).blk t).view.read (Elt Ideal)
      (grouped (m ((c : Thread nD τ).loc main_arg0)) (m ((c : Thread nD τ).loc main_arg1))
        (m ((c : Thread nD τ).loc main_arg2))) := by
  rw [flushed3]
  unfold out0_3
  rw [View.canon_unit_zero zeros2]
  simp only [View.ld_unit_zero (S := S2048x512) zeros2, View.ld_unit_zero (S := S1x512x512) zeros3,
    View.ld_unit_zero (S := S1x1x512) zeros3]
  obtain ⟨e0, e1, e2, e3, e4, e5, e6, e7, e8, e9⟩ := block_indices t
  refine funext fun (j : S2048x512.Idx) => ?_
  obtain ⟨p, q, rfl⟩ : ∃ (p : Fin 2048) (q : Fin 512), j = ix2 p q := ⟨j 0, j 1, eq_ix2 j⟩
  have hp : p.val < 2048 := p.isLt
  have hq : q.val < 512 := q.isLt
  show k0_pay1 (F := Ideal) (iblk m c 0 t) (iblk m c 1 t) (iblk m c 2 t) (ix2 p q)
    = grouped _ _ _ (((cfg0.win 3).blk t).view.emb (ix2 p q))
  refine (BodyValue.stored_at (iblk m c 0 t) (iblk m c 1 t) (iblk m c 2 t) p q).trans ?_
  unfold grouped
  refine congrArg₂ (· + ·) (Finset.sum_congr rfl fun k _ => congrArg₂ (· * ·) ?_ ?_) ?_
  · refine rows_block m c t p k _ ?_ ?_
    · show win0_3.index t (0 : Fin 2) * 2048 + 1 * p.val = win0_0.index t (0 : Fin 2) * 2048 + p.val
      omega
    · show k.val = win0_0.index t (1 : Fin 2) * 512 + k.val
      omega
  · refine weight_block m c t k q _ ?_ ?_ ?_
    · show (win0_3.index t (0 : Fin 2) * 2048 + 1 * p.val) / 32768 = win0_1.index t (0 : Fin 3) * 1 + 0
      omega
    · show k.val = win0_1.index t (1 : Fin 3) * 512 + k.val
      omega
    · show win0_3.index t (1 : Fin 2) * 512 + 1 * q.val = win0_1.index t (2 : Fin 3) * 512 + q.val
      omega
  · refine bias_block m c t q _ ?_ e6 ?_
    · show (win0_3.index t (0 : Fin 2) * 2048 + 1 * p.val) / 32768 = win0_2.index t (0 : Fin 3) * 1 + 0
      omega
    · show win0_3.index t (1 : Fin 2) * 512 + 1 * q.val = win0_2.index t (2 : Fin 3) * 512 + q.val
      omega

/-! ## The cover -/

/-- An index of the output array is in point `t`'s block iff each coordinate is in the block's range on its axis. -/
theorem mem_block (t : Fin cfg0.N) (i : S262144x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v1).slice (win0_3.rect t)).set ↔ _
  rw [View.set_slice_whole, Rect.mem_set_unit]
  exact Iff.rfl

/-- Row r of the output lies in the block of the point whose row block is r / 2048. -/
theorem covered (i : S262144x512.Idx) :
    ∃ t : Fin cfg0.N, (cfg0.win 3).flush t = true ∧ i ∈ ((cfg0.win 3).blk t).view.set := by
  have hi0 : (i 0).val < 262144 := (i 0).isLt
  have hi1 : (i 1).val < 512 := (i 1).isLt
  obtain ⟨t, ht⟩ := block_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-! ## The array after the run, and the run -/

/-- The output array after the run is `grouped` of the argument arrays. -/
theorem final (c : Dev nD) :
    (dats m 0 c).arrAt 3 cfg0.N
      = grouped (m ((c : Thread nD τ).loc main_arg0)) (m ((c : Thread nD τ).loc main_arg1))
          (m ((c : Thread nD τ).loc main_arg2)) :=
  (dats m 0 c).arrAt_eq_of_cover 3 _ (fun t _ => flushed_eq m c t) covered

/-- Every weakly fair execution of the kernel's program ends with the result at `grouped` of the arguments, the
    arguments unchanged. -/
theorem run : θ_run defs (onTc (τ := τ) (main (F := Ideal))) ⟨m, fun _ => 0, ρ⟩ fun r => ∀ c : Dev nD,
      r.2.mem ((c : Thread nD τ).loc main_v1)
        = grouped (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.lean ====
/-
  Grouped matrix product with equal contiguous groups. `x` is [262144, 512], `weight` is [8, 512, 512], `bias` is
  [8, 512]. The rows of `x` fall into eight groups of 32768 consecutive rows; both programs compute

      out[r, n] = Σ_k x[r, k] · weight[r / 32768, k, n] + bias[r / 32768, n]

  over the extended reals (`GroupedSpec.lean`: `grouped`).

  The kernel runs on an 8 × 16 grid; point (g, s) multiplies rows (16·g + s)·2048 … + 2047 of `x` by the weight matrix of
  group g into a zero accumulator and adds the bias row of group g to every row. Its factors are narrowed to a shorter
  float format first, which is the identity on the extended reals. `BodyValue.lean` reads the stored block at an entry,
  `ArrayValue.lean` reads each input block off its argument array, checks that a row of point (g, s) has group g, and
  tiles the output with the 128 row blocks.

  The reference views `x` as [8, 32768, 512], contracts against the weight matrix of the same leading index, adds the
  bias row of that index and views the result as [262144, 512] again; `RefValue.lean` reads it at an entry: the two
  changes of view cancel and the leading index of row r is r / 32768.

  The two sides are then the same expression, so no law of the extended reals beyond 0 + s = s is used and the
  finiteness of the inputs is never opened. The kernel's idealization rewrote nothing, so the fourth conjunct is
  `True`. The three frames are the generated ones; the reference's is its run with the result dropped.
-/
import proofs.«124337_j20624432955428_1_alg».proof.Defs
import proofs.«124337_j20624432955428_1_alg».proof.Proof.Gen.Kernel
import proofs.«124337_j20624432955428_1_alg».proof.Proof.Gen.Kernel.Skeleton
import proofs.«124337_j20624432955428_1_alg».proof.Proof.Gen.Kernel.Launch
import proofs.«124337_j20624432955428_1_alg».proof.Proof.Gen.Kernel.Points
import proofs.«124337_j20624432955428_1_alg».proof.Proof.Gen.Kernel.Frame
import proofs.«124337_j20624432955428_1_alg».proof.Proof.Gen.KernelIdeal
import proofs.«124337_j20624432955428_1_alg».proof.Proof.Gen.KernelIdeal.Skeleton
import proofs.«124337_j20624432955428_1_alg».proof.Proof.Gen.KernelIdeal.Launch
import proofs.«124337_j20624432955428_1_alg».proof.Proof.Gen.KernelIdeal.Points
import proofs.«124337_j20624432955428_1_alg».proof.Proof.Gen.KernelIdeal.Frame
import proofs.«124337_j20624432955428_1_alg».proof.Proof.Gen.ReferenceIdeal
import proofs.«124337_j20624432955428_1_alg».proof.Proof.Gen.Pre_finite_inputs
import proofs.«124337_j20624432955428_1_alg».proof.Proof.Gen.KernelIdeal.Value
import proofs.«124337_j20624432955428_1_alg».proof.Proof.Gen.ReferenceIdeal.Run
import proofs.«124337_j20624432955428_1_alg».proof.Proof.Gen.ReferenceIdeal.Read
import proofs.«124337_j20624432955428_1_alg».proof.Proof.GroupedSpec
import proofs.«124337_j20624432955428_1_alg».proof.Proof.RefValue
import proofs.«124337_j20624432955428_1_alg».proof.Proof.BodyValue
import proofs.«124337_j20624432955428_1_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result at `grouped` of them. -/
theorem algebraic : Cert.algebraic_KernelIdeal_ReferenceIdeal := by
  intro m ρ m' ρ' _ hagree
  refine ⟨fun c => Cert.GroupedGemm.grouped (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
